-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 21
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S128x128, .f32⟩
  | .hbm, ⟨19, _⟩ => ⟨S1x128, .f32⟩
  | .hbm, ⟨20, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Payload.lean ====
/-
  What the kernel body stores, read at one entry.

  The body loads a 5000 × 128 block `x0` of aggregated features, the whole 128 × 128 transposed weight `x1` and the
  1 × 128 bias row `x2`, narrows the two matrix operands to bf16 (no change on the extended reals), multiplies them
  into a zero accumulator, and adds the bias row broadcast down the 5000 rows. So the stored value at row `p`,
  column `q` is

      (∑ₖ x0[p, k] · x1[k, q]) + x2[0, q].

  The matrix product is a sum over the contraction shape's one axis; it is re-indexed by that axis' coordinate, the
  operand indices at output (p, q) and contraction coordinate k being (p, k) and (k, q).
-/
import proofs.«159629_j57664230916666_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-- The product's dimension numbers: rows × contraction against contraction × columns. -/
abbrev D := dot_S5000x128_S128x128_S5000x128_1_0_0_1_n_n

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at row `p` and column `q`: the 128 products along the contraction. -/
theorem product_apply {φ₁ φ₂ : FTy} (a : FVec Ideal S5000x128 φ₁) (w : FVec Ideal S128x128 φ₂) (p : Fin 5000) (q : Fin 128) :
    matmul (F := Ideal) D none a w (constant S5000x128 .f32 0x00000000#32) (ix2 p q)
      = ∑ k : Fin 128, a (ix2 p k) * w (ix2 k q) := by
  simp only [matmul]
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun a => Fin.ext (by
    match a with
    | ⟨0, _⟩ => exact lhs_row _ _
    | ⟨1, _⟩ => exact (lhs_contr _ _).trans hk)
  have er : D.rhsIdx (ix2 p q) ((ValueIdx.contrEquiv1 D 128 rfl rfl).symm k) = ix2 k q := funext fun a => Fin.ext (by
    match a with
    | ⟨0, _⟩ => exact (rhs_contr _ _).trans hk
    | ⟨1, _⟩ => exact rhs_col _ _)
  rw [el, er]

/-- The bias row broadcast down the rows, at row `p` and column `q`: the row's entry at column `q`. -/
theorem bias_apply (x2 : FVec Ideal S1x128 .f32) (p : Fin 5000) (q : Fin 128) :
    broadcastTo S5000x128 x2 broadcasts_S1x128_S5000x128 (ix2 p q) = x2 (ix2 (0 : Fin 1) q) :=
  broadcastTo_apply x2 broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- THE STORED VALUE at row `p`, column `q` of the block. -/
theorem stored_apply (x0 : Vec Ideal S5000x128 .f32) (x1 : Vec Ideal S128x128 .f32) (x2 : Vec Ideal S1x128 .f32) (p : Fin 5000) (q : Fin 128) :
    k0_pay1 (F := Ideal) x0 x1 x2 (ix2 p q) = (∑ k : Fin 128, x0 (ix2 p k) * x1 (ix2 k q)) + x2 (ix2 (0 : Fin 1) q) := by
  unfold k0_pay1
  show matmul (F := Ideal) D none (truncf .bf16 (shapeCast S5000x128 x0 shapeCasts_S5000x128_S5000x128) bitsLt_bf16_f32)
      (truncf .bf16 (shapeCast S128x128 x1 shapeCasts_S128x128_S128x128) bitsLt_bf16_f32) (constant S5000x128 .f32 0x00000000#32) (ix2 p q)
    + broadcastTo S5000x128 (shapeCast S1x128 x2 shapeCasts_S1x128_S1x128) broadcasts_S1x128_S5000x128 (ix2 p q) = _
  rw [shapeCast_self, shapeCast_self, shapeCast_self]
  refine (congrArg₂ (· + ·) (product_apply _ _ p q) (bias_apply x2 p q)).trans ?_
  rfl

end Cert.KernelIdeal.Payload

end
-- ==== Proof.Affine.lean ====
/-
  The function both programs compute once the aggregated features are in hand.

  With `A` the aggregated node features (one row of 128 per node, 100000 nodes), `Wt` the transposed weight matrix
  (input feature × output feature) and `b` the bias, the dense layer's output at node `i` and output feature `j` is

      out[i, j] = (∑ₖ A[i, k] · Wt[k, j]) + b[j],

  a sum of 128 products on the extended reals. Nothing here needs the entries to be finite: the two programs are
  shown to compute this very expression, factor for factor, so only the identity of the terms is used.
-/
import Idealize.ShloMosaic.PureOps.Ideal
import Idealize.ShloMosaic.Lib.ValueIdx

noncomputable section

namespace Cert.Affine

open Idealize.ShloMosaic Idealize.ShloMosaic.ValueIdx

/-- A node-feature array: 100000 rows of 128. -/
abbrev SNodes : Shape := ⟨2, ![100000, 128]⟩
/-- A square weight array. -/
abbrev SWeight : Shape := ⟨2, ![128, 128]⟩
/-- A bias vector. -/
abbrev SBias : Shape := ⟨1, ![128]⟩

/-- The dense layer on the extended reals: row `i` of `A` against column `j` of `Wt`, plus `b j`. -/
def affine (A : SNodes.Idx → EReal) (Wt : SWeight.Idx → EReal) (b : SBias.Idx → EReal) : SNodes.Idx → EReal :=
  fun i => (∑ k : Fin 128, A (ix2 (i 0 : Fin 100000) k) * Wt (ix2 k (i 1 : Fin 128))) + b (ix1 (i 1 : Fin 128))

theorem affine_apply (A : SNodes.Idx → EReal) (Wt : SWeight.Idx → EReal) (b : SBias.Idx → EReal) (p : Fin 100000) (q : Fin 128) :
    affine A Wt b (ix2 p q) = (∑ k : Fin 128, A (ix2 p k) * Wt (ix2 k q)) + b (ix1 q) := rfl

end Cert.Affine

end
-- ==== Proof.KernelIndex.lean ====
/-
  Where the kernel's blocks lie.

  The grid has 20 points. At point `t` the feature window and the output window hold rows 5000·t … 5000·t + 4999 (all
  128 columns) of their arrays; the weight window holds the whole 128 × 128 array and the bias window the whole
  1 × 128 row at every point. So entry (p, q) of the output block at `t` is entry (5000·t + p, q) of the output
  array, and the 20 row blocks tile the 100000 rows: row `r` lies in block `r / 5000`. Nothing here mentions the
  arrays' contents.
-/
import proofs.«159629_j57664230916666_1_alg».proof.Proof.Gen.KernelIdeal.Points
import proofs.«159629_j57664230916666_1_alg».proof.Proof.Gen.KernelIdeal.Launch
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

theorem origin : (![0, 0] : Fin 2 → Nat) = fun _ => 0 := funext fun a => by fin_cases a <;> rfl

/-- The printed index maps over the 20 points: the feature and output windows sit at row block `t`, column block 0;
    the weight and the bias at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 20 := Nat.lt_of_lt_of_eq t.isLt N_0

/-- Entry (p, k) of the feature block at point `t` is entry (5000·t + p, k) of the feature array. -/
theorem rows_index (t : Fin cfg0.N) (p : Fin 5000) (k : Fin 128) (h : t.val * 5000 + p.val < 100000) :
    ((cfg0.win 0).blk t).view.emb (ix2 p k) = ix2 (⟨t.val * 5000 + p.val, h⟩ : Fin 100000) k := by
  obtain ⟨e0, e1, -⟩ := block_indices t
  refine funext fun a => Fin.ext ?_
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block is the whole array at every point. -/
theorem weight_index (t : Fin cfg0.N) (k q : Fin 128) :
    ((cfg0.win 1).blk t).view.emb (ix2 k q) = ix2 k q := by
  obtain ⟨-, -, e2, e3, -⟩ := block_indices t
  refine funext fun a => Fin.ext ?_
  match a with
  | ⟨0, _⟩ => show win0_1.index t (0 : Fin 2) * 128 + 1 * k.val = k.val; omega
  | ⟨1, _⟩ => show win0_1.index t (1 : Fin 2) * 128 + 1 * q.val = q.val; omega

/-- The bias block is the whole row at every point. -/
theorem bias_index (t : Fin cfg0.N) (q : Fin 128) :
    ((cfg0.win 2).blk t).view.emb (ix2 (0 : Fin 1) q) = ix2 (0 : Fin 1) q := by
  obtain ⟨-, -, -, -, e4, e5, -⟩ := block_indices t
  refine funext fun a => Fin.ext ?_
  match a with
  | ⟨0, _⟩ => show win0_2.index t (0 : Fin 2) * 1 + 1 * 0 = 0; omega
  | ⟨1, _⟩ => show win0_2.index t (1 : Fin 2) * 128 + 1 * q.val = q.val; omega

/-- Entry (p, q) of the output block at point `t` is entry (5000·t + p, q) of the output array. -/
theorem out_index (t : Fin cfg0.N) (p : Fin 5000) (q : Fin 128) (h : t.val * 5000 + p.val < 100000) :
    ((cfg0.win 3).blk t).view.emb (ix2 p q) = ix2 (⟨t.val * 5000 + p.val, h⟩ : Fin 100000) q := by
  obtain ⟨-, -, -, -, -, -, e6, e7⟩ := block_indices t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- An index of the output array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- The 20 row blocks tile the array: row `r` is in block `r / 5000`. -/
theorem covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e6, e7⟩ := block_indices t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

end Cert.KernelIdeal.Blocks

end
-- ==== Proof.KernelValue.lean ====
/-
  The kernel's output array after the run.

  Point `t` of the grid reads its block of the aggregated features, the whole transposed weight and the whole bias
  row, and writes back one 5000 × 128 block of the output. For ANY three arrays `A`, `Wt`, `B` in the windows'
  places, the block the body leaves at point `t` is block `t` of the dense layer of `A`, `Wt` and `B`'s row: the
  payload at (p, q) is (∑ₖ blockA[p, k] · Wt[k, q]) + B[0, q], block row `p` is array row 5000·t + p, and the output
  block's entry (p, q) is the output array's entry (5000·t + p, q). The 20 blocks tile the output, so after the run
  the output array is the dense layer of the three arrays as the region finds them.
-/
import proofs.«159629_j57664230916666_1_alg».proof.Proof.Gen.KernelIdeal.Value
import proofs.«159629_j57664230916666_1_alg».proof.Proof.Payload
import proofs.«159629_j57664230916666_1_alg».proof.Proof.Affine
import proofs.«159629_j57664230916666_1_alg».proof.Proof.KernelIndex

noncomputable section

namespace Cert.KernelIdeal.Dense

open Cert.KernelIdeal Cert.KernelIdeal.Gen Cert.KernelIdeal.Value Cert.KernelIdeal.Blocks
open Idealize.ShloMosaic Idealize.ShloMosaic.TcCoe Idealize.SL.Sem
open Idealize.ShloMosaic.ValueIdx Cert.Affine
open Idealize.ShloMosaic.Pipeline (Dat)

/-- The dense layer with the bias given as a 1 × 128 row. -/
def denseOf (A : S100000x128.Idx → EReal) (Wt : S128x128.Idx → EReal) (B : S1x128.Idx → EReal) : S100000x128.Idx → EReal :=
  affine A Wt (fun j => B (ix2 (0 : Fin 1) (j 0 : Fin 128)))

theorem denseOf_apply (A : S100000x128.Idx → EReal) (Wt : S128x128.Idx → EReal) (B : S1x128.Idx → EReal) (r : Fin 100000) (q : Fin 128) :
    denseOf A Wt B (ix2 r q) = (∑ k : Fin 128, A (ix2 r k) * Wt (ix2 k q)) + B (ix2 (0 : Fin 1) q) := rfl

/-- Entry (p, k) of the feature block at point `t` is the array's entry (5000·t + p, k). -/
theorem rows_read (A : S100000x128.Idx → EReal) (t : Fin cfg0.N) (p : Fin 5000) (k : Fin 128) (h : t.val * 5000 + p.val < 100000) :
    ((cfg0.win 0).blk t).view.read (Elt Ideal) A (ix2 p k) = A (ix2 (⟨t.val * 5000 + p.val, h⟩ : Fin 100000) k) := by
  show A (((cfg0.win 0).blk t).view.emb (ix2 p k)) = _
  rw [rows_index t p k h]

/-- The weight block is the whole array. -/
theorem weight_read (Wt : S128x128.Idx → EReal) (t : Fin cfg0.N) (k q : Fin 128) :
    ((cfg0.win 1).blk t).view.read (Elt Ideal) Wt (ix2 k q) = Wt (ix2 k q) := by
  show Wt (((cfg0.win 1).blk t).view.emb (ix2 k q)) = _
  rw [weight_index t k q]

/-- The bias block is the whole row. -/
theorem bias_read (B : S1x128.Idx → EReal) (t : Fin cfg0.N) (q : Fin 128) :
    ((cfg0.win 2).blk t).view.read (Elt Ideal) B (ix2 (0 : Fin 1) q) = B (ix2 (0 : Fin 1) q) := by
  show B (((cfg0.win 2).blk t).view.emb (ix2 (0 : Fin 1) q)) = _
  rw [bias_index t q]

/-- THE BLOCK THE BODY LEAVES at point `t`, for any three arrays in the windows' places, is block `t` of their dense layer. -/
theorem block_dense (A : S100000x128.Idx → EReal) (Wt : S128x128.Idx → EReal) (B : S1x128.Idx → EReal) (t : Fin cfg0.N) :
    (cfg0.win 3).cut (grid0.coords t) (out0_3 (F := Ideal) (((cfg0.win 0).blk t).view.read (Elt Ideal) A)
        (((cfg0.win 1).blk t).view.read (Elt Ideal) Wt) (((cfg0.win 2).blk t).view.read (Elt Ideal) B))
      = ((cfg0.win 3).blk t).view.read (Elt Ideal) (denseOf A Wt B) := by
  unfold out0_3
  rw [View.canon_unit_zero origin]
  simp only [View.ld_unit_zero (S := S5000x128) origin, View.ld_unit_zero (S := S128x128) origin, View.ld_unit_zero (S := S1x128) origin]
  funext j
  obtain ⟨p, q, rfl⟩ : ∃ (p : Fin 5000) (q : Fin 128), j = ix2 p q := ⟨j 0, j 1, eq_ix2 j⟩
  have hp : t.val * 5000 + p.val < 100000 := by have := point_lt t; have := p.isLt; omega
  show k0_pay1 (F := Ideal) (((cfg0.win 0).blk t).view.read (Elt Ideal) A) (((cfg0.win 1).blk t).view.read (Elt Ideal) Wt)
      (((cfg0.win 2).blk t).view.read (Elt Ideal) B) (ix2 p q) = denseOf A Wt B (((cfg0.win 3).blk t).view.emb (ix2 p q))
  rw [out_index t p q hp, denseOf_apply]
  refine (Payload.stored_apply _ _ _ p q).trans ?_
  exact congrArg₂ (· + ·) (Finset.sum_congr rfl fun k _ => congrArg₂ (· * ·) (rows_read A t p k hp) (weight_read Wt t k q)) (bias_read B t q)

variable (m : (ℓ : Loc nD τ sig) → Buf (Elt Ideal) ℓ) (ρ : Dev nD → PrngReg)

/-- A window's block at a point is its array, as the region finds it, read through the block. -/
theorem iblk_eq (c : Dev nD) (w : Fin cfg0.W) (t : Fin cfg0.N) :
    iblk m c w t = ((cfg0.win w).blk t).view.read (Elt Ideal) (V m c (Pipeline.arrRef spec0 w)) := by
  unfold iblk; rfl

/-- The dense layer of the three arrays the region finds. -/
def dense (c : Dev nD) : S100000x128.Idx → EReal := denseOf (V m c main_v9) (V m c main_v10) (V m c main_v11)

/-- WHAT POINT `t` WRITES BACK is block `t` of that dense layer. -/
theorem flushed_eq (c : Dev nD) (t : Fin cfg0.N) :
    (dats m 0 c).flushed 3 t = ((cfg0.win 3).blk t).view.read (Elt Ideal) (dense m c) := by
  rw [Value.flushed3, iblk_eq, iblk_eq, iblk_eq]
  exact block_dense (V m c main_v9) (V m c main_v10) (V m c main_v11) t

/-- THE OUTPUT ARRAY after the run is the dense layer of the three arrays the region finds. -/
theorem final (c : Dev nD) : (dats m 0 c).arrAt 3 cfg0.N = dense m c :=
  (dats m 0 c).arrAt_eq_of_cover 3 (dense m c) (fun t _ => flushed_eq m c t) covered

end Cert.KernelIdeal.Dense

end
-- ==== Proof.Head.lean ====
/-
  The three arrays the kernel region finds, as functions of the program's arguments.

  Before the region the host computes, from the arguments alone: the aggregated features (a gather of the feature
  rows named by the wrapped source ids, scatter-added into a zero array at the destination ids), the transposed
  weight, and the bias reshaped to one row. The reference computes the first two by the very same operations of the
  same arguments, so they are identified with the reference's own stages as whole terms: neither the gather nor
  the scatter is ever opened. The bias row's entry (0, q) is the bias at q, both having row-major position q.
-/
import proofs.«159629_j57664230916666_1_alg».proof.Proof.Gen.KernelIdeal.Frame
import proofs.«159629_j57664230916666_1_alg».proof.Proof.Gen.ReferenceIdeal.Read
import Idealize.ShloMosaic.Lib.StableHlo.Run
import Idealize.ShloMosaic.Lib.ValueIdx
import Idealize.ShloMosaic.Lib.Pipeline.Value

noncomputable section

namespace Cert.KernelIdeal.Head

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The aggregated features the region finds are the reference's aggregation stage of the same three arguments. -/
theorem agg_eq (c : Dev nD) :
    (V m c main_v9 : S100000x128.Idx → EReal)
      = Cert.ReferenceIdeal.Read.val_main_v9 (F := Ideal) (m ((c : Thread nD τ).loc main_arg0)) (m ((c : Thread nD τ).loc main_arg1)) (m ((c : Thread nD τ).loc main_arg2)) := by
  dsimp only [Gen.V, Gen.hostOps0]; after_results; rfl

/-- The weight the region finds is the reference's transposed weight of the same argument. -/
theorem wt_eq (c : Dev nD) :
    (V m c main_v10 : S128x128.Idx → EReal) = Cert.ReferenceIdeal.Read.val_main_v10 (F := Ideal) (m ((c : Thread nD τ).loc main_arg3)) := by
  dsimp only [Gen.V, Gen.hostOps0]; after_results; rfl

/-- The bias row the region finds is the bias argument reshaped. -/
theorem bias_row_eq (c : Dev nD) :
    (V m c main_v11 : S1x128.Idx → EReal) = shapeCast S1x128 (m ((c : Thread nD τ).loc main_arg4)) shapeCasts_S128_S1x128 := by
  dsimp only [Gen.V, Gen.hostOps0]; after_results; rfl

/-- Its entry (0, q) is the bias at q. -/
theorem bias_row_apply (c : Dev nD) (q : Fin 128) :
    (V m c main_v11 : S1x128.Idx → EReal) (ix2 (0 : Fin 1) q) = (m ((c : Thread nD τ).loc main_arg4) : S128.Idx → EReal) (ix1 q) := by
  rw [bias_row_eq]
  exact shapeCast_apply _ shapeCasts_S128_S1x128 (ix2 (0 : Fin 1) q) (ix1 q) (by
    rw [Shape.rowMajor_val_two, Shape.rowMajor_val_one]; show q.val = 0 * 128 + q.val; omega)

end Cert.KernelIdeal.Head

end
-- ==== Proof.KernelResult.lean ====
/-
  The kernel's output array as a function of the program's arguments.

  After the run the output array is the dense layer of the three arrays the region finds; those are the
  reference's aggregation of the feature, source and destination arguments, the reference's transposed weight, and
  the bias laid out as a row whose entry (0, q) is the bias at q. So the kernel's result is the dense layer
  `affine` of the aggregated features, the transposed weight and the bias — the same expression the reference's
  last stage is.
-/
import proofs.«159629_j57664230916666_1_alg».proof.Proof.KernelValue
import proofs.«159629_j57664230916666_1_alg».proof.Proof.Head

noncomputable section

namespace Cert.KernelIdeal.Result

open Cert.KernelIdeal Cert.KernelIdeal.Gen Idealize.ShloMosaic Idealize.ShloMosaic.TcCoe Idealize.SL.Sem
open Idealize.ShloMosaic.ValueIdx Cert.Affine

variable (m : (ℓ : Loc nD τ sig) → Buf (Elt Ideal) ℓ)

/-- The bias row the region finds, read along its one row, is the bias argument. -/
theorem bias_fun (c : Dev nD) :
    (fun j : SBias.Idx => (V m c main_v11 : S1x128.Idx → EReal) (ix2 (0 : Fin 1) (j 0 : Fin 128)))
      = (m ((c : Thread nD τ).loc main_arg4) : S128.Idx → EReal) :=
  funext fun j => (Head.bias_row_apply m c (j 0)).trans (congrArg _ (eq_ix1 j).symm)

/-- THE KERNEL'S RESULT: the dense layer of the aggregated features, the transposed weight and the bias. -/
theorem result (c : Dev nD) :
    (dats m 0 c).arrAt 3 cfg0.N
      = affine (Cert.ReferenceIdeal.Read.val_main_v9 (F := Ideal) (m ((c : Thread nD τ).loc main_arg0)) (m ((c : Thread nD τ).loc main_arg1)) (m ((c : Thread nD τ).loc main_arg2)))
          (Cert.ReferenceIdeal.Read.val_main_v10 (F := Ideal) (m ((c : Thread nD τ).loc main_arg3)))
          (m ((c : Thread nD τ).loc main_arg4)) := by
  rw [Dense.final]
  unfold Dense.dense Dense.denseOf
  rw [bias_fun m c, Head.agg_eq m c, Head.wt_eq m c]

end Cert.KernelIdeal.Result

end
-- ==== Proof.RefAffine.lean ====
/-
  The reference, read at an entry.

  The reference aggregates the gathered rows into `agg`, transposes the weight, takes the host's
  `dot_general` of the two (contracting `agg`'s columns against the transposed weight's rows), and adds the bias
  broadcast first to one row and then down all rows. Read at node `i` and feature `j` that is
  `(∑ₖ agg[i, k] · Wt[k, j]) + b[j]`: the dense layer `affine` of the aggregated array, the transposed weight and
  the bias. The aggregated array and the transposed weight are kept as whole terms; only the last four operations
  are opened.
-/
import proofs.«159629_j57664230916666_1_alg».proof.Proof.Gen.ReferenceIdeal.Read
import proofs.«159629_j57664230916666_1_alg».proof.Proof.Affine

noncomputable section

namespace Cert.ReferenceIdeal.RefAffine

open Cert.ReferenceIdeal Cert.ReferenceIdeal.Gen Cert.ReferenceIdeal.Read Idealize.ShloMosaic Idealize.ShloMosaic.ValueIdx Cert.Affine

/-- The contraction's left operand index at output (p, q), coordinate k: (p, k). -/
theorem left_index (p : Fin 100000) (q k : Fin 128) : lidx_main_v11 (ix2 p q) k = ix2 p k :=
  funext fun a => Fin.ext (by match a with | ⟨0, _⟩ => rfl | ⟨1, _⟩ => rfl)

/-- Its right operand index: (k, q). -/
theorem right_index (p : Fin 100000) (q k : Fin 128) : ridx_main_v11 (ix2 p q) k = ix2 k q :=
  funext fun a => Fin.ext (by match a with | ⟨0, _⟩ => rfl | ⟨1, _⟩ => rfl)

/-- The twice-broadcast bias at (p, q) reads the bias at q. -/
theorem bias_index (p : Fin 100000) (q : Fin 128) : idx_main_v12 (idx_main_v13 (ix2 p q)) = ix1 q :=
  funext fun a => Fin.ext (by match a with | ⟨0, _⟩ => rfl)

/-- THE REFERENCE'S RESULT is the dense layer of its aggregated array, its transposed weight and the bias. -/
theorem result_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4 = affine (val_main_v9 (F := Ideal) x0 x1 x2) (val_main_v10 (F := Ideal) x3) x4 := by
  funext i
  obtain ⟨p, q, rfl⟩ : ∃ (p : Fin 100000) (q : Fin 128), i = ix2 p q := ⟨i 0, i 1, eq_ix2 i⟩
  rw [val_main_v14_apply, val_main_v11_apply, val_main_v13_apply, val_main_v12_apply, affine_apply]
  simp only [left_index, right_index, bias_index]
  rfl

end Cert.ReferenceIdeal.RefAffine

end
-- ==== Proof.lean ====
/- The proof of `Cert.Claim`: a graph convolution — copy the source node's features along every edge, sum them at the
   destination node, then a dense linear layer — computed with the linear layer as a tiled kernel, against the same
   computation written with a host matrix product.

   Both programs form the aggregated features by the same host operations of the same arguments (negative source
   ids wrapped, a row gather, a scatter-add into a zero array) and both transpose the weight; that common part is
   carried as one term and never opened. What differs is the last step. The kernel walks 20 row blocks of 5000
   rows; on each it multiplies the block by the whole transposed weight into a zero accumulator (its operands
   narrowed to bf16, which changes nothing on the extended reals) and adds the bias row. The reference takes the
   host's matrix product of the whole aggregated array with the transposed weight and adds the bias broadcast to
   every row. At node `i` and output feature `j` both are

       (∑ₖ agg[i, k] · Wt[k, j]) + b[j],

   the same 128 products in the same order and the same final sum, so the equality is an identity of terms on the
   extended reals: no distributivity or cancellation is used, and the finiteness of the inputs is not needed.

   Proof/Affine.lean states that expression; Proof/Payload.lean reads the kernel body's stored value at an entry;
   Proof/KernelIndex.lean locates the blocks and shows they tile the output; Proof/KernelValue.lean concludes that
   the output array is the expression of the three arrays the kernel region finds; Proof/Head.lean identifies those
   arrays with the reference's own stages of the arguments; Proof/KernelResult.lean puts the two together;
   Proof/RefAffine.lean reads the reference's last stage as the same expression. The three frames are the
   generated frame runs (the reference's its generated run with the result dropped); the idealization rewrote no
   operation, so its claim is trivial. -/
import proofs.«159629_j57664230916666_1_alg».proof.Defs
import proofs.«159629_j57664230916666_1_alg».proof.Proof.Gen.Kernel
import proofs.«159629_j57664230916666_1_alg».proof.Proof.Gen.Kernel.Skeleton
import proofs.«159629_j57664230916666_1_alg».proof.Proof.Gen.Kernel.Launch
import proofs.«159629_j57664230916666_1_alg».proof.Proof.Gen.Kernel.Points
import proofs.«159629_j57664230916666_1_alg».proof.Proof.Gen.Kernel.Frame
import proofs.«159629_j57664230916666_1_alg».proof.Proof.Gen.KernelIdeal
import proofs.«159629_j57664230916666_1_alg».proof.Proof.Gen.KernelIdeal.Skeleton
import proofs.«159629_j57664230916666_1_alg».proof.Proof.Gen.KernelIdeal.Launch
import proofs.«159629_j57664230916666_1_alg».proof.Proof.Gen.KernelIdeal.Points
import proofs.«159629_j57664230916666_1_alg».proof.Proof.Gen.KernelIdeal.Frame
import proofs.«159629_j57664230916666_1_alg».proof.Proof.Gen.ReferenceIdeal
import proofs.«159629_j57664230916666_1_alg».proof.Proof.Gen.Pre_finite_inputs
import proofs.«159629_j57664230916666_1_alg».proof.Proof.Gen.KernelIdeal.Value
import proofs.«159629_j57664230916666_1_alg».proof.Proof.Gen.ReferenceIdeal.Run
import proofs.«159629_j57664230916666_1_alg».proof.Proof.Gen.ReferenceIdeal.Read
import proofs.«159629_j57664230916666_1_alg».proof.Proof.KernelResult
import proofs.«159629_j57664230916666_1_alg».proof.Proof.RefAffine
import Idealize.ShloMosaic.Adequacy
import Idealize.ShloMosaic.Init

noncomputable section

namespace Cert.Proof

open Idealize.ShloMosaic Idealize.SL.Sem

/-- The kernel as printed runs and leaves its arguments as they were: the generated frame run. -/
theorem frame_kernel : Cert.frame_Kernel :=
  fun m ρ _ => Cert.Kernel.Gen.frame m ρ

/-- So does its reading on the extended reals. -/
theorem frame_kernel_ideal : Cert.frame_KernelIdeal :=
  fun m ρ _ => Cert.KernelIdeal.Gen.frame m ρ

/-- The reference runs and leaves its arguments as they were: its generated run, the result dropped. -/
theorem frame_reference : Cert.frame_ReferenceIdeal :=
  fun m ρ _ => (θ_run Cert.ReferenceIdeal.defs _ _).mono (fun _ h c => (h c).2) (Cert.ReferenceIdeal.Value.run (F := Ideal) m ρ)

/-- From memories agreeing on the arguments both programs end with the dense layer of the aggregated features, the
    transposed weight and the bias: the kernel's output array by its blocks, the reference's last stage read at an
    entry. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Result.result m c), (h c).2⟩)
    (Cert.KernelIdeal.Value.run_blocks (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v14_eq _ _ _ _ _).trans (Cert.ReferenceIdeal.RefAffine.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
